-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x320x64x64x64 : Shape := ⟨5, ![1, 320, 64, 64, 64]⟩
abbrev S_ : Shape := ⟨0, ![]⟩

class Facts : Prop where
  bcast_S_S1x320x64x64x64 : S_.BroadcastsInDim S1x320x64x64x64 (![] : Fin 0 → Fin S1x320x64x64x64.rank)
  reducesTo_S1x320x64x64x64_S_d0_1_2_3_4 : S1x320x64x64x64.ReducesTo [0, 1, 2, 3, 4] S_
  h_S_ : 0 < S_.numel

variable [Facts]

def fn {F : FTy → Type} [FloatOps F] (main_arg0 : FVec F S1x320x64x64x64 .f32) : IVec S_ 1 :=
  let main_v0 : FVec F S1x320x64x64x64 .f32 := Host.absf main_arg0
  let main_cst : FVec F S_ .f32 := constant S_ .f32 0x7F800000#32
  let main_v1 : FVec F S1x320x64x64x64 .f32 := broadcastInDim S1x320x64x64x64 ![] bcast_S_S1x320x64x64x64 main_cst
  let main_v2 : IVec S1x320x64x64x64 1 := cmpf .olt main_v0 main_v1
  let main_c : IVec S_ 1 := constantI S_ 1 1#1
  let main_v3 : IVec S_ 1 := (fun x v => Host.reduce IntOp.andi x v reducesTo_S1x320x64x64x64_S_d0_1_2_3_4 h_S_) main_v2 main_c
  main_v3
-- ==== Kernel.lean ====
abbrev S1x320x64x64x64 : Shape := ⟨5, ![1, 320, 64, 64, 64]⟩
abbrev S_ : Shape := ⟨0, ![]⟩
abbrev S1x320x68x64x64 : Shape := ⟨5, ![1, 320, 68, 64, 64]⟩
abbrev S1x32x68x8x64 : Shape := ⟨5, ![1, 32, 68, 8, 64]⟩
abbrev S1x32x64x8x64 : Shape := ⟨5, ![1, 32, 64, 8, 64]⟩

abbrev nBuf : Space → Nat
  | .hbm => 5
  | .vmem => 4
  | .smem => 0
  | _ => 0

abbrev bufTy : (tb : Table) → Fin (tcTables nBuf tb) → BufTy
  | .hbm, ⟨0, _⟩ => ⟨S1x320x64x64x64, .f32⟩
  | .hbm, ⟨1, _⟩ => ⟨S_, .i32⟩
  | .hbm, ⟨2, _⟩ => ⟨S_, .f32⟩
  | .hbm, ⟨3, _⟩ => ⟨S1x320x68x64x64, .f32⟩
  | .hbm, ⟨4, _⟩ => ⟨S1x320x64x64x64, .f32⟩
  | .local _ .vmem, ⟨0, _⟩ => ⟨S1x32x68x8x64, .f32⟩
  | .local _ .vmem, ⟨1, _⟩ => ⟨S1x32x68x8x64, .f32⟩
  | .local _ .vmem, ⟨2, _⟩ => ⟨S1x32x64x8x64, .f32⟩
  | .local _ .vmem, ⟨3, _⟩ => ⟨S1x32x64x8x64, .f32⟩
  | _, _ => ⟨S1x320x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![5, 2, 8], ![false, false, false]⟩

def k0_off1 (i : grid0.Coords) : Fin 5 → Nat :=
  let c0 : Index := 0#32
  let c0_0 : Index := 0#32
  let c4_i32 : BitVec 32 := 4#32
  let arg0 : BitVec 32 := BitVec.ofNat 32 (i 0).val
  let v0 : BitVec 32 := Scalar.subi c4_i32 arg0
  let v1 : Index := Scalar.indexCast v0
  let c0_1 : Index := 0#32
  let c0_2 : Index := 0#32
  ![0, 0, v1.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, arg2.toNat, c0_i32_1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, arg2.toNat, c0_i32_1.toNat]

abbrev stage0_0 : Fin 2 → Memref sig .tc .vmem S1x32x68x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x64x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  pads_S1x320x64x64x64_S1x320x68x64x64_000_000_220_000_000 : S1x320x64x64x64.Pads (![0, 0, 2, 0, 0] : Fin 5 → Nat) ![0, 0, 2, 0, 0] ![0, 0, 0, 0, 0] S1x320x68x64x64
  h_S_ : 0 < S_.numel
  h_S1x32x64x8x64 : 0 < S1x32x64x8x64.numel
  shapeCasts_S1x32x64x8x64_S1x32x64x8x64 : S1x32x64x8x64.ShapeCasts S1x32x64x8x64
  inb_S1x32x64x8x64_S1x32x64x8x64_0_0_0_0_0 : ∀ a, (![0, 0, 0, 0, 0] : Fin 5 → Nat) a + S1x32x64x8x64.size a ≤ S1x32x64x8x64.size a
  hrank0 : 0 < grid0.rank
  k0_off1_inb : ∀ i : grid0.Coords, ∀ a, (k0_off1 i) a + S1x32x64x8x64.size a ≤ S1x32x68x8x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x68x8x64.size a ≤ S1x320x68x64x64.size a
  hwx0_0 : ∀ i : grid0.Coords, EltTy.bits .f32 = 32 ∨ (Rect.block (s := S1x320x68x64x64) S1x32x68x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64x8x64.size a ≤ S1x320x64x64x64.size a
  hwx0_1 : ∀ i : grid0.Coords, EltTy.bits .f32 = 32 ∨ (Rect.block (s := S1x320x64x64x64) S1x32x64x8x64.size (cc0_transform_1 i) (hinb0_1 i)).WholeWords (EltTy.packing .f32)

variable [Facts₀]

abbrev win0_0 : Pipeline.Window sig grid0 :=
  Pipeline.Window.ofSpec (Memref.whole main_v0) S1x32x68x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x64x8x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x320x64x64x64 : Shape := ⟨5, ![1, 320, 64, 64, 64]⟩
abbrev S_ : Shape := ⟨0, ![]⟩
abbrev S1x320x68x64x64 : Shape := ⟨5, ![1, 320, 68, 64, 64]⟩
abbrev S1x64x68x64x64 : Shape := ⟨5, ![1, 64, 68, 64, 64]⟩
abbrev S1x64x66x64x64 : Shape := ⟨5, ![1, 64, 66, 64, 64]⟩
abbrev S1x64x2x64x64 : Shape := ⟨5, ![1, 64, 2, 64, 64]⟩
abbrev S1x64x67x64x64 : Shape := ⟨5, ![1, 64, 67, 64, 64]⟩
abbrev S1x64x1x64x64 : Shape := ⟨5, ![1, 64, 1, 64, 64]⟩
abbrev S1x64x0x64x64 : Shape := ⟨5, ![1, 64, 0, 64, 64]⟩

abbrev nBuf : Space → Nat
  | .hbm => 26
  | .vmem => 0
  | .smem => 0
  | _ => 0

abbrev bufTy : (tb : Table) → Fin (tcTables nBuf tb) → BufTy
  | .hbm, ⟨0, _⟩ => ⟨S1x320x64x64x64, .f32⟩
  | .hbm, ⟨1, _⟩ => ⟨S_, .i32⟩
  | .hbm, ⟨2, _⟩ => ⟨S_, .f32⟩
  | .hbm, ⟨3, _⟩ => ⟨S1x320x68x64x64, .f32⟩
  | .hbm, ⟨4, _⟩ => ⟨S1x64x68x64x64, .f32⟩
  | .hbm, ⟨5, _⟩ => ⟨S1x64x68x64x64, .f32⟩
  | .hbm, ⟨6, _⟩ => ⟨S1x64x68x64x64, .f32⟩
  | .hbm, ⟨7, _⟩ => ⟨S1x64x68x64x64, .f32⟩
  | .hbm, ⟨8, _⟩ => ⟨S1x64x68x64x64, .f32⟩
  | .hbm, ⟨9, _⟩ => ⟨S1x64x66x64x64, .f32⟩
  | .hbm, ⟨10, _⟩ => ⟨S1x64x2x64x64, .f32⟩
  | .hbm, ⟨11, _⟩ => ⟨S1x64x68x64x64, .f32⟩
  | .hbm, ⟨12, _⟩ => ⟨S1x64x67x64x64, .f32⟩
  | .hbm, ⟨13, _⟩ => ⟨S1x64x1x64x64, .f32⟩
  | .hbm, ⟨14, _⟩ => ⟨S1x64x68x64x64, .f32⟩
  | .hbm, ⟨15, _⟩ => ⟨S1x64x68x64x64, .f32⟩
  | .hbm, ⟨16, _⟩ => ⟨S1x64x0x64x64, .f32⟩
  | .hbm, ⟨17, _⟩ => ⟨S1x64x68x64x64, .f32⟩
  | .hbm, ⟨18, _⟩ => ⟨S1x64x1x64x64, .f32⟩
  | .hbm, ⟨19, _⟩ => ⟨S1x64x67x64x64, .f32⟩
  | .hbm, ⟨20, _⟩ => ⟨S1x64x68x64x64, .f32⟩
  | .hbm, ⟨21, _⟩ => ⟨S1x64x2x64x64, .f32⟩
  | .hbm, ⟨22, _⟩ => ⟨S1x64x66x64x64, .f32⟩
  | .hbm, ⟨23, _⟩ => ⟨S1x64x68x64x64, .f32⟩
  | .hbm, ⟨24, _⟩ => ⟨S1x320x68x64x64, .f32⟩
  | .hbm, ⟨25, _⟩ => ⟨S1x320x64x64x64, .f32⟩
  | _, _ => ⟨S1x320x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call1_v0 : Ref sig .tc := ⟨.hbm, 9, rfl⟩
abbrev main_call1_v1 : Ref sig .tc := ⟨.hbm, 10, rfl⟩
abbrev main_v6 : Ref sig .tc := ⟨.hbm, 11, rfl⟩
abbrev main_call2_v0 : Ref sig .tc := ⟨.hbm, 12, rfl⟩
abbrev main_call2_v1 : Ref sig .tc := ⟨.hbm, 13, rfl⟩
abbrev main_v7 : Ref sig .tc := ⟨.hbm, 14, rfl⟩
abbrev main_call3_v0 : Ref sig .tc := ⟨.hbm, 15, rfl⟩
abbrev main_call3_v1 : Ref sig .tc := ⟨.hbm, 16, rfl⟩
abbrev main_v8 : Ref sig .tc := ⟨.hbm, 17, rfl⟩
abbrev main_call4_v0 : Ref sig .tc := ⟨.hbm, 18, rfl⟩
abbrev main_call4_v1 : Ref sig .tc := ⟨.hbm, 19, rfl⟩
abbrev main_v9 : Ref sig .tc := ⟨.hbm, 20, rfl⟩
abbrev main_call5_v0 : Ref sig .tc := ⟨.hbm, 21, rfl⟩
abbrev main_call5_v1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  pads_S1x320x64x64x64_S1x320x68x64x64_000_000_220_000_000 : S1x320x64x64x64.Pads (![0, 0, 2, 0, 0] : Fin 5 → Nat) ![0, 0, 2, 0, 0] ![0, 0, 0, 0, 0] S1x320x68x64x64
  h_S_ : 0 < S_.numel
  slices_S1x320x68x64x64_S1x64x68x64x64_0_0_0_0_0 : S1x320x68x64x64.Slices ![0, 0, 0, 0, 0] S1x64x68x64x64
  slices_S1x320x68x64x64_S1x64x68x64x64_0_64_0_0_0 : S1x320x68x64x64.Slices ![0, 64, 0, 0, 0] S1x64x68x64x64
  slices_S1x320x68x64x64_S1x64x68x64x64_0_128_0_0_0 : S1x320x68x64x64.Slices ![0, 128, 0, 0, 0] S1x64x68x64x64
  slices_S1x320x68x64x64_S1x64x68x64x64_0_192_0_0_0 : S1x320x68x64x64.Slices ![0, 192, 0, 0, 0] S1x64x68x64x64
  slices_S1x320x68x64x64_S1x64x68x64x64_0_256_0_0_0 : S1x320x68x64x64.Slices ![0, 256, 0, 0, 0] S1x64x68x64x64
  slices_S1x64x68x64x64_S1x64x66x64x64_0_0_2_0_0 : S1x64x68x64x64.Slices ![0, 0, 2, 0, 0] S1x64x66x64x64
  slices_S1x64x68x64x64_S1x64x2x64x64_0_0_0_0_0 : S1x64x68x64x64.Slices ![0, 0, 0, 0, 0] S1x64x2x64x64
  concatenates_S1x64x66x64x64_S1x64x2x64x64_S1x64x68x64x64_d2 : Shape.Concatenates [S1x64x66x64x64, S1x64x2x64x64] S1x64x68x64x64 2
  slices_S1x64x68x64x64_S1x64x67x64x64_0_0_1_0_0 : S1x64x68x64x64.Slices ![0, 0, 1, 0, 0] S1x64x67x64x64
  slices_S1x64x68x64x64_S1x64x1x64x64_0_0_0_0_0 : S1x64x68x64x64.Slices ![0, 0, 0, 0, 0] S1x64x1x64x64
  concatenates_S1x64x67x64x64_S1x64x1x64x64_S1x64x68x64x64_d2 : Shape.Concatenates [S1x64x67x64x64, S1x64x1x64x64] S1x64x68x64x64 2
  slices_S1x64x68x64x64_S1x64x68x64x64_0_0_0_0_0 : S1x64x68x64x64.Slices ![0, 0, 0, 0, 0] S1x64x68x64x64
  slices_S1x64x68x64x64_S1x64x0x64x64_0_0_0_0_0 : S1x64x68x64x64.Slices ![0, 0, 0, 0, 0] S1x64x0x64x64
  concatenates_S1x64x68x64x64_S1x64x0x64x64_S1x64x68x64x64_d2 : Shape.Concatenates [S1x64x68x64x64, S1x64x0x64x64] S1x64x68x64x64 2
  slices_S1x64x68x64x64_S1x64x1x64x64_0_0_67_0_0 : S1x64x68x64x64.Slices ![0, 0, 67, 0, 0] S1x64x1x64x64
  slices_S1x64x68x64x64_S1x64x67x64x64_0_0_0_0_0 : S1x64x68x64x64.Slices ![0, 0, 0, 0, 0] S1x64x67x64x64
  concatenates_S1x64x1x64x64_S1x64x67x64x64_S1x64x68x64x64_d2 : Shape.Concatenates [S1x64x1x64x64, S1x64x67x64x64] S1x64x68x64x64 2
  slices_S1x64x68x64x64_S1x64x2x64x64_0_0_66_0_0 : S1x64x68x64x64.Slices ![0, 0, 66, 0, 0] S1x64x2x64x64
  slices_S1x64x68x64x64_S1x64x66x64x64_0_0_0_0_0 : S1x64x68x64x64.Slices ![0, 0, 0, 0, 0] S1x64x66x64x64
  concatenates_S1x64x2x64x64_S1x64x66x64x64_S1x64x68x64x64_d2 : Shape.Concatenates [S1x64x2x64x64, S1x64x66x64x64] S1x64x68x64x64 2
  concatenates_S1x64x68x64x64_S1x64x68x64x64_S1x64x68x64x64_S1x64x68x64x64_S1x64x68x64x64_S1x320x68x64x64_d1 : Shape.Concatenates [S1x64x68x64x64, S1x64x68x64x64, S1x64x68x64x64, S1x64x68x64x64, S1x64x68x64x64] S1x320x68x64x64 1
  slices_S1x320x68x64x64_S1x320x64x64x64_0_0_2_0_0 : S1x320x68x64x64.Slices ![0, 0, 2, 0, 0] S1x320x64x64x64

variable [Facts₀]

class Facts : Prop extends Facts₀ where

variable [Facts]
-- ==== Proof.DepthShift.lean ====
/-
  The per-group depth shift, as ONE function of the zero-padded array.

  The array is [1, 320, 64, 64, 64] (batch, channel, depth, height, width). Its 320 channels fall into five groups
  of 64; group `g = c / 64` is moved along the depth axis by `g - 2` planes, zeros entering at the boundary:

      out[c, d] = x[c, d - (g - 2)]   when  0 ≤ d - (g - 2) < 64,   and 0 otherwise.

  Over the array padded by two zero planes at either end of the depth axis, `P[c, e] = x[c, e - 2]` for
  `2 ≤ e < 66` and 0 elsewhere (68 planes), this is a plain read at a moved depth:

      out[c, d] = P[c, d + 4 - c / 64],                                          (`shifted`)

  and `d + 4 - g` lies in `0 .. 67` for every `d < 64` and `g ≤ 4`: no read leaves the padded array, so nothing wraps.

  The reference spells the same thing with rolls. A roll of a 68-plane group is two bands joined along the depth
  axis: the last `n₁` planes' worth taken from plane `n₂` on, then the first `n₂` planes, `n₁ + n₂ = 68`. Read at a
  depth `d`: below `n₁` it is the group at `d + n₂` (`roll_fst`), from `n₁` on it is the group at `d - n₁` (`roll_snd`).
  The five rolled groups are joined along the channel axis and narrowed to the depths `2 .. 65`; at every depth the
  narrowing keeps, group `g`'s roll reads its group `g` planes further back less two, which is `shifted`
  (`narrowed_join`). Every element is only moved, never computed with, so the element type is arbitrary.
-/
import Idealize.ShloMosaic.Lib.Pipeline.Value
import Idealize.ShloMosaic.Lib.ValueIdx

noncomputable section

namespace Cert.DepthShift

open Idealize.ShloMosaic Idealize.ShloMosaic.ValueIdx

/-- The result array, and the array padded by two planes at either end of the depth axis. -/
abbrev Arr : Shape := ⟨5, ![1, 320, 64, 64, 64]⟩
abbrev Padded : Shape := ⟨5, ![1, 320, 68, 64, 64]⟩
/-- One group of 64 channels of the padded array, and a band of `n` of its depth planes. -/
abbrev Grp : Shape := ⟨5, ![1, 64, 68, 64, 64]⟩
abbrev Band (n : Nat) : Shape := ⟨5, ![1, 64, n, 64, 64]⟩

variable {α : Type}

/-- The padded depth plane that channel `c`'s output plane `d` is read from: `d + 4 - c / 64`. -/
def srcDepth (c : Fin 320) (d : Fin 64) : Fin 68 :=
  ⟨d.val + 4 - c.val / 64, by have := c.isLt; have := d.isLt; omega⟩

/-- The shifted array, as a function of the padded one. -/
def shifted (P : Padded.Idx → α) : Arr.Idx → α :=
  fun i => P (ix5 (n0 := 1) (n1 := 320) (n2 := 68) (n3 := 64) (n4 := 64) (i 0) (i 1) (srcDepth (i 1) (i 2)) (i 3) (i 4))

/-! ## A roll, read at a depth -/

/-- Two bands of a group joined along the depth axis, read below the first band's extent: the first band, which
    starts at plane `n₂` of the group. -/
theorem roll_fst (n₁ n₂ : Nat) (X : Grp.Idx → α)
    (h₁ : Grp.Slices ![0, 0, n₂, 0, 0] (Band n₁)) (h₂ : Grp.Slices ![0, 0, 0, 0, 0] (Band n₂))
    (hc : Shape.Concatenates [Band n₁, Band n₂] Grp 2)
    (a : Fin 1) (b : Fin 64) (d : Fin 68) (h w : Fin 64) (k : Fin 68) (hd : d.val < n₁) (hk : k.val = n₂ + d.val) :
    concatenate Grp 2 [⟨Band n₁, extractStridedSlice (Band n₁) ![0, 0, n₂, 0, 0] X h₁⟩,
        ⟨Band n₂, extractStridedSlice (Band n₂) ![0, 0, 0, 0, 0] X h₂⟩] hc (ix5 a b d h w)
      = X (ix5 a b k h w) := by
  refine (concatenate_pair_apply_left (t := Grp) (s₁ := Band n₁) (s₂ := Band n₂) (2 : Fin 5) _ _ hc (ix5 a b d h w) rfl
    (ix5 (n2 := n₁) a b ⟨d.val, hd⟩ h w) (fun e => match e with
      | ⟨0, _⟩ => rfl | ⟨1, _⟩ => rfl | ⟨2, _⟩ => rfl | ⟨3, _⟩ => rfl | ⟨4, _⟩ => rfl)).trans ?_
  exact extractStridedSlice_apply ![0, 0, n₂, 0, 0] X h₁ _ (ix5 a b k h w) (fun e => match e with
    | ⟨0, _⟩ => by show a.val = 0 + a.val; omega
    | ⟨1, _⟩ => by show b.val = 0 + b.val; omega
    | ⟨2, _⟩ => by show k.val = n₂ + d.val; exact hk
    | ⟨3, _⟩ => by show h.val = 0 + h.val; omega
    | ⟨4, _⟩ => by show w.val = 0 + w.val; omega)

/-- The same joined bands read from the first band's extent on: the second band, which starts at plane 0. -/
theorem roll_snd (n₁ n₂ : Nat) (X : Grp.Idx → α)
    (h₁ : Grp.Slices ![0, 0, n₂, 0, 0] (Band n₁)) (h₂ : Grp.Slices ![0, 0, 0, 0, 0] (Band n₂))
    (hc : Shape.Concatenates [Band n₁, Band n₂] Grp 2)
    (a : Fin 1) (b : Fin 64) (d : Fin 68) (h w : Fin 64) (k : Fin 68) (hd : n₁ ≤ d.val) (hk : k.val + n₁ = d.val)
    (hk₂ : k.val < n₂) :
    concatenate Grp 2 [⟨Band n₁, extractStridedSlice (Band n₁) ![0, 0, n₂, 0, 0] X h₁⟩,
        ⟨Band n₂, extractStridedSlice (Band n₂) ![0, 0, 0, 0, 0] X h₂⟩] hc (ix5 a b d h w)
      = X (ix5 a b k h w) := by
  refine (concatenate_pair_apply_right (t := Grp) (s₁ := Band n₁) (s₂ := Band n₂) (2 : Fin 5) _ _ hc (ix5 a b d h w) rfl rfl
    (ix5 (n2 := n₂) a b ⟨k.val, hk₂⟩ h w) (fun e he => match e, he with
      | ⟨0, _⟩, _ => rfl | ⟨1, _⟩, _ => rfl | ⟨2, _⟩, he => absurd rfl he | ⟨3, _⟩, _ => rfl | ⟨4, _⟩, _ => rfl)
    (by show k.val + n₁ = d.val; exact hk)).trans ?_
  exact extractStridedSlice_apply ![0, 0, 0, 0, 0] X h₂ _ (ix5 a b k h w) (fun e => match e with
    | ⟨0, _⟩ => by show a.val = 0 + a.val; omega
    | ⟨1, _⟩ => by show b.val = 0 + b.val; omega
    | ⟨2, _⟩ => by show k.val = 0 + k.val; omega
    | ⟨3, _⟩ => by show h.val = 0 + h.val; omega
    | ⟨4, _⟩ => by show w.val = 0 + w.val; omega)

/-- A group of 64 channels cut out of the padded array from channel `o` on, read at a channel of the group. -/
theorem group_apply (o : Nat) (P : Padded.Idx → α) (hs : Padded.Slices ![0, o, 0, 0, 0] Grp)
    (a : Fin 1) (b : Fin 64) (k : Fin 68) (h w : Fin 64) (c : Fin 320) (hc : c.val = o + b.val) :
    extractStridedSlice Grp ![0, o, 0, 0, 0] P hs (ix5 a b k h w) = P (ix5 a c k h w) :=
  extractStridedSlice_apply ![0, o, 0, 0, 0] P hs _ (ix5 a c k h w) (fun e => match e with
    | ⟨0, _⟩ => by show a.val = 0 + a.val; omega
    | ⟨1, _⟩ => by show c.val = o + b.val; exact hc
    | ⟨2, _⟩ => by show k.val = 0 + k.val; omega
    | ⟨3, _⟩ => by show h.val = 0 + h.val; omega
    | ⟨4, _⟩ => by show w.val = 0 + w.val; omega)

/-! ## The five groups joined and narrowed -/

/-- `R` holds channel group `g` of the padded array `P` moved along the depth axis so that, at every plane `d` the
    narrowing keeps (`2 ≤ d < 66`), it reads `P`'s plane `d + 2 - g` (the caller names channel and plane). -/
def ReadsGroup (P : Padded.Idx → α) (R : Grp.Idx → α) (g : Nat) : Prop :=
  ∀ (a : Fin 1) (b : Fin 64) (d : Fin 68) (h w : Fin 64) (c : Fin 320) (k : Fin 68),
    2 ≤ d.val → d.val < 66 → c.val = 64 * g + b.val → k.val + g = d.val + 2 → R (ix5 a b d h w) = P (ix5 a c k h w)

/-- Five groups joined along the channel axis, read at channel `c`: group `c / 64` at channel `c % 64`. -/
theorem join_apply (R : Fin 5 → Grp.Idx → α) (hcat : Shape.Concatenates [Grp, Grp, Grp, Grp, Grp] Padded 1)
    (a : Fin 1) (c : Fin 320) (d : Fin 68) (h w : Fin 64) (g : Fin 5) (hg : c.val / 64 = g.val) :
    concatenate Padded 1 [⟨Grp, R 0⟩, ⟨Grp, R 1⟩, ⟨Grp, R 2⟩, ⟨Grp, R 3⟩, ⟨Grp, R 4⟩] hcat (ix5 a c d h w)
      = R g (ix5 a (⟨c.val % 64, Nat.mod_lt _ (by decide)⟩ : Fin 64) d h w) :=
  concatenate_ofFn_apply (t := Padded) (s₁ := Grp) (1 : Fin 5) R hcat rfl 64 rfl (ix5 a c d h w) g hg
    (ix5 a (⟨c.val % 64, Nat.mod_lt _ (by decide)⟩ : Fin 64) d h w) rfl
    (fun e he => match e, he with
      | ⟨0, _⟩, _ => rfl | ⟨1, _⟩, he => absurd rfl he | ⟨2, _⟩, _ => rfl | ⟨3, _⟩, _ => rfl | ⟨4, _⟩, _ => rfl)

/-- THE REFERENCE'S SPELLING IS THE SHIFT: five arrays that each hold their channel group of `P` moved by the
    group's number of planes less two, joined along the channel axis and narrowed to the planes `2 .. 65`, are
    `shifted P`: at result plane `d` of channel `c` the joined array's plane `d + 2` of group `c / 64` reads
    `P`'s plane `(d + 2) + 2 - c / 64`. -/
theorem narrowed_join (P : Padded.Idx → α) (R0 R1 R2 R3 R4 : Grp.Idx → α)
    (hcat : Shape.Concatenates [Grp, Grp, Grp, Grp, Grp] Padded 1) (hnar : Padded.Slices ![0, 0, 2, 0, 0] Arr)
    (hR0 : ReadsGroup P R0 0) (hR1 : ReadsGroup P R1 1) (hR2 : ReadsGroup P R2 2) (hR3 : ReadsGroup P R3 3)
    (hR4 : ReadsGroup P R4 4) :
    extractStridedSlice Arr ![0, 0, 2, 0, 0]
      (concatenate Padded 1 [⟨Grp, R0⟩, ⟨Grp, R1⟩, ⟨Grp, R2⟩, ⟨Grp, R3⟩, ⟨Grp, R4⟩] hcat) hnar = shifted P := by
  funext i
  have h1 : (i 1).val < 320 := (i 1).isLt
  have h2 : (i 2).val < 64 := (i 2).isLt
  -- the narrowing keeps the planes 2 .. 65: result plane `d` is the joined array's plane `d + 2`
  refine (extractStridedSlice_apply ![0, 0, 2, 0, 0] _ hnar i
    (ix5 (n0 := 1) (n1 := 320) (n2 := 68) (n3 := 64) (n4 := 64) (i 0) (i 1) ⟨(i 2).val + 2, by omega⟩ (i 3) (i 4))
    (fun e => match e with
      | ⟨0, _⟩ => by show (i 0).val = 0 + (i 0).val; omega
      | ⟨1, _⟩ => by show (i 1).val = 0 + (i 1).val; omega
      | ⟨2, _⟩ => by show (i 2).val + 2 = 2 + (i 2).val; omega
      | ⟨3, _⟩ => by show (i 3).val = 0 + (i 3).val; omega
      | ⟨4, _⟩ => by show (i 4).val = 0 + (i 4).val; omega)).trans ?_
  -- whichever group the channel is in, that group's array reads `P` where `shifted` does
  have hread : ∀ (g : Nat) (R : Grp.Idx → α), ReadsGroup P R g → (i 1).val / 64 = g →
      R (ix5 (n0 := 1) (n1 := 64) (n2 := 68) (n3 := 64) (n4 := 64) (i 0) ⟨(i 1).val % 64, Nat.mod_lt _ (by decide)⟩
        ⟨(i 2).val + 2, by omega⟩ (i 3) (i 4)) = shifted P i := by
    intro g R hR hg
    exact hR _ _ _ _ _ (i 1) (srcDepth (i 1) (i 2)) (by show 2 ≤ (i 2).val + 2; omega)
      (by show (i 2).val + 2 < 66; omega) (by show (i 1).val = 64 * g + (i 1).val % 64; omega)
      (by show (i 2).val + 4 - (i 1).val / 64 + g = (i 2).val + 2 + 2; omega)
  obtain hg | hg | hg | hg | hg : (i 1).val / 64 = 0 ∨ (i 1).val / 64 = 1 ∨ (i 1).val / 64 = 2
      ∨ (i 1).val / 64 = 3 ∨ (i 1).val / 64 = 4 := by omega
  · exact (join_apply ![R0, R1, R2, R3, R4] hcat (i 0) (i 1) _ (i 3) (i 4) 0 hg).trans (hread 0 R0 hR0 hg)
  · exact (join_apply ![R0, R1, R2, R3, R4] hcat (i 0) (i 1) _ (i 3) (i 4) 1 hg).trans (hread 1 R1 hR1 hg)
  · exact (join_apply ![R0, R1, R2, R3, R4] hcat (i 0) (i 1) _ (i 3) (i 4) 2 hg).trans (hread 2 R2 hR2 hg)
  · exact (join_apply ![R0, R1, R2, R3, R4] hcat (i 0) (i 1) _ (i 3) (i 4) 3 hg).trans (hread 3 R3 hR3 hg)
  · exact (join_apply ![R0, R1, R2, R3, R4] hcat (i 0) (i 1) _ (i 3) (i 4) 4 hg).trans (hread 4 R4 hR4 hg)

end Cert.DepthShift

end
-- ==== Proof.KernelShift.lean ====
/-
  The kernel's result array is the depth shift of the padded argument.

  The kernel pads the depth axis on the host exactly as the reference does, and then runs over a grid of
  5 × 2 × 8 points (group `g`, half-group `s`, height tile `h`). At a point the input block is channels
  `32 (2 g + s) .. + 32`, ALL 68 padded planes, heights `8 h .. + 8`, every width, of the padded array; the output
  block is the same channels, heights and widths with the 64 result planes. The body loads the 64 planes of its
  input block that start at plane `4 - g` and stores them as the output block. So element `(c', d, h', w)` of the
  output block at the point is the padded array at channel `32 (2 g + s) + c'`, plane `(4 - g) + d`; and since
  `c' < 32` and `s < 2`, that channel's group `(32 (2 g + s) + c') / 64` is `g`: the block is the block of
  `shifted` of the padded array. The 80 output blocks tile the result array (channel tile `c / 32`, height tile
  `h / 8`), each written back once, so the array ends at `shifted` of the padded array.
-/
import proofs.«176181_j72404558676308_1_alg».proof.Proof.Gen.KernelIdeal.Value
import proofs.«176181_j72404558676308_1_alg».proof.Proof.DepthShift
import Idealize.ShloMosaic.Lib.Pipeline.Value
import Idealize.ShloMosaic.Lib.StableHlo.Run

set_option maxRecDepth 16384

noncomputable section

namespace Cert.KernelIdeal.ShiftValue

open Cert.KernelIdeal Cert.KernelIdeal.Gen Cert.DepthShift
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- The argument padded by two planes of the converted integer zero at either end of the depth axis. -/
def padded (x : S1x320x64x64x64.Idx → Elt F .f32) : S1x320x68x64x64.Idx → Elt F .f32 :=
  pad S1x320x68x64x64 ![0, 0, 2, 0, 0] ![0, 0, 2, 0, 0] ![0, 0, 0, 0, 0] x (sitofp .f32 (constantI S_ 32 0#32))
    pads_S1x320x64x64x64_S1x320x68x64x64_000_000_220_000_000 h_S_

/-- The store's offsets are all zero: it writes the whole output block. -/
theorem offsets_zero : (![0, 0, 0, 0, 0] : Fin 5 → Nat) = fun _ => 0 :=
  funext fun a => by fin_cases a <;> rfl

/-! ## What the body leaves in the output block -/

/-- The body's one store covers the output block, and what it stores is what it loaded (the shape cast between
    them is to the same shape): the 64 planes of the input block `x0` from the point's plane offset on. -/
theorem stored_eq (c : Dev nD) (i : grid0.Coords) (arg3 : Memref sig .tc .vmem S1x32x68x8x64 .f32) (harg3 : arg3.IsWhole)
    (arg4 : Memref sig .tc .vmem S1x32x64x8x64 .f32) (harg4 : arg4.IsWhole) (x0 : Vec F S1x32x68x8x64 .f32) :
    out0_A_1 c i arg3 harg3 arg4 harg4 x0
      = View.ld x0 (Rect.unit (s := S1x32x68x8x64) (k0_off1 i) S1x32x64x8x64.size (k0_off1_inb i)) := by
  unfold out0_A_1
  rw [View.read_writes_eq_canon _ _ _ (cover0_A_1 c i arg3 harg3 arg4 harg4 x0)]
  unfold kernelRun0_A
  dsimp only
  sl_unfold_words
  rw [View.canon_unit_zero offsets_zero]
  simp only [View.readAt_eq_ld, harg3.read_unread]
  unfold k0_pay1
  exact shapeCast_self _ _

/-! ## The grid's points -/

/-- Decided over the 80 points: the input and output blocks have the same block index on every axis; only the
    channel and height axes are tiled (10 and 8 tiles); the load's offsets are zero off the depth axis; and on the
    depth axis the offset is `4 - g` where `g` is the channel tile halved. -/
theorem point_facts : ∀ t : Fin cfg0.N,
    win0_0.index t (0 : Fin 5) = win0_1.index t (0 : Fin 5)
    ∧ win0_0.index t (1 : Fin 5) = win0_1.index t (1 : Fin 5)
    ∧ win0_0.index t (2 : Fin 5) = win0_1.index t (2 : Fin 5)
    ∧ win0_0.index t (3 : Fin 5) = win0_1.index t (3 : Fin 5)
    ∧ win0_0.index t (4 : Fin 5) = win0_1.index t (4 : Fin 5)
    ∧ win0_1.index t (0 : Fin 5) = 0 ∧ win0_1.index t (2 : Fin 5) = 0 ∧ win0_1.index t (4 : Fin 5) = 0
    ∧ win0_1.index t (1 : Fin 5) ≤ 9 ∧ win0_1.index t (3 : Fin 5) ≤ 7
    ∧ k0_off1 (grid0.coords t) (0 : Fin 5) = 0 ∧ k0_off1 (grid0.coords t) (1 : Fin 5) = 0
    ∧ k0_off1 (grid0.coords t) (3 : Fin 5) = 0 ∧ k0_off1 (grid0.coords t) (4 : Fin 5) = 0
    ∧ k0_off1 (grid0.coords t) (2 : Fin 5) + win0_1.index t (1 : Fin 5) / 2 = 4 :=
  (by decide +kernel : ∀ t : Fin grid0.N, _)

/-- Every channel tile and height tile is some point's output block. -/
theorem point_onto : ∀ (q1 : Fin 10) (q3 : Fin 8), ∃ t : Fin cfg0.N, win0_1.index t = ![0, q1.val, 0, q3.val, 0] :=
  (by decide +kernel : ∀ (q1 : Fin 10) (q3 : Fin 8), ∃ t : Fin grid0.N, win0_1.index t = ![0, q1.val, 0, q3.val, 0])

/-! ## From the blocks to the array -/

/-- WHAT POINT `t` WRITES BACK is block `t` of the shift of the padded array as the region finds it. -/
theorem flushed_eq (c : Dev nD) (t : Fin cfg0.N) :
    (dats m 0 c).flushed 1 t
      = ((cfg0.win 1).blk t).view.read (Elt F) (shifted (V m c main_v0 : S1x320x68x64x64.Idx → Elt F .f32)) := by
  rw [Cert.KernelIdeal.Value.flushed1_A, stored_eq]
  obtain ⟨e0, e1, e2, e3, e4, z0, z2, z4, b1, b3, o0, o1, o3, o4, hs⟩ := point_facts t
  funext j
  show V m c main_v0 (((cfg0.win 0).blk t).view.emb
      ((Rect.unit (s := S1x32x68x8x64) (k0_off1 (grid0.coords t)) S1x32x64x8x64.size (k0_off1_inb (grid0.coords t))).idx j))
    = shifted (V m c main_v0 : S1x320x68x64x64.Idx → Elt F .f32) (((cfg0.win 1).blk t).view.emb j)
  unfold shifted
  refine congrArg (V m c main_v0) ?_
  have hj1 : (j 1).val < 32 := (j 1).isLt
  have hj2 : (j 2).val < 64 := (j 2).isLt
  funext a; apply Fin.ext
  match a with
  | ⟨0, _⟩ =>
    show win0_0.index t (0 : Fin 5) * 1 + 1 * (k0_off1 (grid0.coords t) (0 : Fin 5) + 1 * (j 0).val)
      = win0_1.index t (0 : Fin 5) * 1 + 1 * (j 0).val
    omega
  | ⟨1, _⟩ =>
    show win0_0.index t (1 : Fin 5) * 32 + 1 * (k0_off1 (grid0.coords t) (1 : Fin 5) + 1 * (j 1).val)
      = win0_1.index t (1 : Fin 5) * 32 + 1 * (j 1).val
    omega
  | ⟨2, _⟩ =>
    show win0_0.index t (2 : Fin 5) * 68 + 1 * (k0_off1 (grid0.coords t) (2 : Fin 5) + 1 * (j 2).val)
      = (win0_1.index t (2 : Fin 5) * 64 + 1 * (j 2).val) + 4 - (win0_1.index t (1 : Fin 5) * 32 + 1 * (j 1).val) / 64
    omega
  | ⟨3, _⟩ =>
    show win0_0.index t (3 : Fin 5) * 8 + 1 * (k0_off1 (grid0.coords t) (3 : Fin 5) + 1 * (j 3).val)
      = win0_1.index t (3 : Fin 5) * 8 + 1 * (j 3).val
    omega
  | ⟨4, _⟩ =>
    show win0_0.index t (4 : Fin 5) * 64 + 1 * (k0_off1 (grid0.coords t) (4 : Fin 5) + 1 * (j 4).val)
      = win0_1.index t (4 : Fin 5) * 64 + 1 * (j 4).val
    omega

/-- An index of the result array is in point `t`'s output block iff each coordinate is in the block's range. -/
theorem mem_block (t : Fin cfg0.N) (i : S1x320x64x64x64.Idx) :
    i ∈ ((cfg0.win 1).blk t).view.set ↔ ∀ a : Fin 5, win0_1.index t a * S1x32x64x8x64.size a ≤ (i a).val
      ∧ (i a).val < win0_1.index t a * S1x32x64x8x64.size a + S1x32x64x8x64.size a := by
  show i ∈ ((View.whole main_v1).slice (win0_1.rect t)).set ↔ _
  rw [View.set_slice_whole, Rect.mem_set_unit]
  exact Iff.rfl

/-- The output blocks tile the result array: channel `c` and height `h` lie in the block of channel tile `c / 32`
    and height tile `h / 8`, and every point writes its block back. -/
theorem covered (i : S1x320x64x64x64.Idx) :
    ∃ t : Fin cfg0.N, (cfg0.win 1).flush t = true ∧ i ∈ ((cfg0.win 1).blk t).view.set := by
  have hi0 : (i 0).val < 1 := (i 0).isLt
  have hi1 : (i 1).val < 320 := (i 1).isLt
  have hi2 : (i 2).val < 64 := (i 2).isLt
  have hi3 : (i 3).val < 64 := (i 3).isLt
  have hi4 : (i 4).val < 64 := (i 4).isLt
  obtain ⟨t, ht⟩ := point_onto ⟨(i 1).val / 32, by omega⟩ ⟨(i 3).val / 8, by omega⟩
  have q0 : win0_1.index t (0 : Fin 5) = 0 := congrFun ht 0
  have q1 : win0_1.index t (1 : Fin 5) = (i 1).val / 32 := congrFun ht 1
  have q2 : win0_1.index t (2 : Fin 5) = 0 := congrFun ht 2
  have q3 : win0_1.index t (3 : Fin 5) = (i 3).val / 8 := congrFun ht 3
  have q4 : win0_1.index t (4 : Fin 5) = 0 := congrFun ht 4
  refine ⟨t, flush0_1 t, ?_⟩
  rw [mem_block]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 32 ≤ (i 1).val ∧ (i 1).val < win0_1.index t (1 : Fin 5) * 32 + 32; omega
  | ⟨2, _⟩ => show win0_1.index t (2 : Fin 5) * 64 ≤ (i 2).val ∧ (i 2).val < win0_1.index t (2 : Fin 5) * 64 + 64; omega
  | ⟨3, _⟩ => show win0_1.index t (3 : Fin 5) * 8 ≤ (i 3).val ∧ (i 3).val < win0_1.index t (3 : Fin 5) * 8 + 8; omega
  | ⟨4, _⟩ => show win0_1.index t (4 : Fin 5) * 64 ≤ (i 4).val ∧ (i 4).val < win0_1.index t (4 : Fin 5) * 64 + 64; omega

/-- THE RESULT ARRAY after the run: the shift of the padded array as the region finds it. -/
theorem final (c : Dev nD) :
    (dats m 0 c).arrAt 1 cfg0.N = shifted (V m c main_v0 : S1x320x68x64x64.Idx → Elt F .f32) :=
  (dats m 0 c).arrAt_eq_of_cover 1 _ (fun t _ => flushed_eq m c t) covered

/-! ## The padded array the region finds -/

/-- The host operations before the region write the padded argument into the array the input window stages. -/
theorem V_padded (c : Dev nD) :
    (V m c main_v0 : S1x320x68x64x64.Idx → Elt F .f32) = padded (m ((c : Thread nD τ).loc main_arg0)) := by
  dsimp only [V]
  simp only [hostOps0, hostOps0_1, List.flatten_cons, List.flatten_nil, List.append_nil, List.cons_append,
    List.nil_append]
  after_results
  rfl

/-! ## The run, read -/

/-- Every weakly fair execution of the kernel's program terminates with the result array at the shift of the padded
    argument, the argument unchanged. -/
theorem run : θ_run defs (onTc (τ := τ) (main (F := F))) ⟨m, fun _ => 0, ρ⟩ fun r => ∀ c : Dev nD,
      r.2.mem ((c : Thread nD τ).loc main_v1) = shifted (padded (m ((c : Thread nD τ).loc main_arg0)))
      ∧ r.2.mem ((c : Thread nD τ).loc main_arg0) = m ((c : Thread nD τ).loc main_arg0) :=
  (θ_run defs _ _).mono (fun r h c => ⟨(h c).1.trans ((final m c).trans (by rw [V_padded])), (h c).2⟩)
    (Cert.KernelIdeal.Value.run_blocks m ρ)

end Cert.KernelIdeal.ShiftValue

end
-- ==== Proof.ReferenceShift.lean ====
/-
  The reference's result is the depth shift of its padded argument.

  The reference pads the depth axis by two zero planes at either end, cuts the 320 channels into five groups of 64,
  rolls group `g` along the padded depth axis by `g - 2` planes (a roll is two bands joined: for `g = 0, 1, 2` the
  planes from `2 - g` on followed by the first `2 - g`; for `g = 3, 4` the last `g - 2` planes followed by the
  rest), joins the groups again and keeps the planes `2 .. 65`. At every plane it keeps, group `g`'s roll reads the
  padded group `g - 2` planes back, and none of those reads comes from the part of a roll that wrapped around
  (`2 ≤ d < 66` and `|g - 2| ≤ 2`): so the result is `shifted` of the padded argument, plane `d` of channel `c`
  reading padded plane `d + 4 - c / 64`.
-/
import proofs.«176181_j72404558676308_1_alg».proof.Proof.Gen.ReferenceIdeal.Run
import proofs.«176181_j72404558676308_1_alg».proof.Proof.DepthShift

noncomputable section

namespace Cert.ReferenceIdeal.RefValue

open Cert.ReferenceIdeal Cert.ReferenceIdeal.Gen Cert.ReferenceIdeal.Value Cert.DepthShift
open Idealize.ShloMosaic Idealize.ShloMosaic.TcCoe Idealize.SL.Sem

variable {F : FTy → Type} [FloatOps F]

/-- The argument padded by two planes of the converted integer zero at either end of the depth axis. -/
def padded (x : S1x320x64x64x64.Idx → Elt F .f32) : S1x320x68x64x64.Idx → Elt F .f32 :=
  pad S1x320x68x64x64 ![0, 0, 2, 0, 0] ![0, 0, 2, 0, 0] ![0, 0, 0, 0, 0] x (sitofp .f32 (constantI S_ 32 0#32))
    pads_S1x320x64x64x64_S1x320x68x64x64_000_000_220_000_000 h_S_

/-- The reference run's result term is the shift of the padded argument: each rolled group, read at a plane the
    final narrowing keeps, is its group of the padded array `g - 2` planes back (the first band of the roll for
    `g ≤ 2`, the second for `g = 3, 4`). -/
theorem result_eq (m : (ℓ : Loc nD τ sig) → Buf (Elt F) ℓ) (c : Dev nD) :
    res_out0 (F := F) m c = shifted (padded (m ((c.tc : Thread nD τ).loc main_arg0))) := by
  show res_main_v12 (F := F) m c = _
  unfold res_main_v12
  exact narrowed_join (padded (m ((c.tc : Thread nD τ).loc main_arg0))) _ _ _ _ _
    concatenates_S1x64x68x64x64_S1x64x68x64x64_S1x64x68x64x64_S1x64x68x64x64_S1x64x68x64x64_S1x320x68x64x64_d1
    slices_S1x320x68x64x64_S1x320x64x64x64_0_0_2_0_0
    (fun a b d h w c' k _ hd hc hk =>
      (roll_fst 66 2 _ slices_S1x64x68x64x64_S1x64x66x64x64_0_0_2_0_0 slices_S1x64x68x64x64_S1x64x2x64x64_0_0_0_0_0
        concatenates_S1x64x66x64x64_S1x64x2x64x64_S1x64x68x64x64_d2 a b d h w k (by omega) (by omega)).trans
      (group_apply 0 _ slices_S1x320x68x64x64_S1x64x68x64x64_0_0_0_0_0 a b k h w c' (by omega)))
    (fun a b d h w c' k _ hd hc hk =>
      (roll_fst 67 1 _ slices_S1x64x68x64x64_S1x64x67x64x64_0_0_1_0_0 slices_S1x64x68x64x64_S1x64x1x64x64_0_0_0_0_0
        concatenates_S1x64x67x64x64_S1x64x1x64x64_S1x64x68x64x64_d2 a b d h w k (by omega) (by omega)).trans
      (group_apply 64 _ slices_S1x320x68x64x64_S1x64x68x64x64_0_64_0_0_0 a b k h w c' (by omega)))
    (fun a b d h w c' k _ hd hc hk =>
      (roll_fst 68 0 _ slices_S1x64x68x64x64_S1x64x68x64x64_0_0_0_0_0 slices_S1x64x68x64x64_S1x64x0x64x64_0_0_0_0_0
        concatenates_S1x64x68x64x64_S1x64x0x64x64_S1x64x68x64x64_d2 a b d h w k (by omega) (by omega)).trans
      (group_apply 128 _ slices_S1x320x68x64x64_S1x64x68x64x64_0_128_0_0_0 a b k h w c' (by omega)))
    (fun a b d h w c' k hd2 hd hc hk =>
      (roll_snd 1 67 _ slices_S1x64x68x64x64_S1x64x1x64x64_0_0_67_0_0 slices_S1x64x68x64x64_S1x64x67x64x64_0_0_0_0_0
        concatenates_S1x64x1x64x64_S1x64x67x64x64_S1x64x68x64x64_d2 a b d h w k (by omega) (by omega) (by omega)).trans
      (group_apply 192 _ slices_S1x320x68x64x64_S1x64x68x64x64_0_192_0_0_0 a b k h w c' (by omega)))
    (fun a b d h w c' k hd2 hd hc hk =>
      (roll_snd 2 66 _ slices_S1x64x68x64x64_S1x64x2x64x64_0_0_66_0_0 slices_S1x64x68x64x64_S1x64x66x64x64_0_0_0_0_0
        concatenates_S1x64x2x64x64_S1x64x66x64x64_S1x64x68x64x64_d2 a b d h w k (by omega) (by omega) (by omega)).trans
      (group_apply 256 _ slices_S1x320x68x64x64_S1x64x68x64x64_0_256_0_0_0 a b k h w c' (by omega)))

end Cert.ReferenceIdeal.RefValue

end
-- ==== Proof.lean ====
/-
  The certificate of the channel-group depth shift.

  The array is [1, 320, 64, 64, 64] (batch, channel, depth, height, width), its channels in five groups of 64, and
  group `g` is moved along the depth axis by `g - 2` planes with zeros entering at the boundary. Both programs first
  pad the depth axis by two zero planes at either end (the same host operations, with the same fill value: the
  integer zero converted to a float). Over the padded array `P` the result is a plain read at a moved plane,

      out[c, d] = P[c, d + 4 - c / 64]          (Proof/DepthShift.lean, `shifted`),

  which never leaves the 68 padded planes. The kernel gets there block by block, loading from its input block the 64
  planes that start at plane `4 - g` (Proof/KernelShift.lean); the reference by rolling each padded group by `g - 2`
  planes, joining the groups and keeping the planes `2 .. 65`, none of which a roll has wrapped around
  (Proof/ReferenceShift.lean). No element is computed with, only moved, so the two results are equal at any value of
  the floats and the finiteness of the input is not used. The kernel's idealization rewrote nothing, so there is
  nothing to preserve. The three frames are the generated frame runs of the two kernel programs and the reference's
  generated run with its result dropped.
-/
import proofs.«176181_j72404558676308_1_alg».proof.Defs
import proofs.«176181_j72404558676308_1_alg».proof.Proof.Gen.Kernel
import proofs.«176181_j72404558676308_1_alg».proof.Proof.Gen.Kernel.Frame
import proofs.«176181_j72404558676308_1_alg».proof.Proof.Gen.KernelIdeal
import proofs.«176181_j72404558676308_1_alg».proof.Proof.Gen.KernelIdeal.Frame
import proofs.«176181_j72404558676308_1_alg».proof.Proof.Gen.ReferenceIdeal
import proofs.«176181_j72404558676308_1_alg».proof.Proof.Gen.Pre_finite_inputs
import proofs.«176181_j72404558676308_1_alg».proof.Proof.KernelShift
import proofs.«176181_j72404558676308_1_alg».proof.Proof.ReferenceShift
import Idealize.ShloMosaic.Adequacy
import Idealize.ShloMosaic.Init

noncomputable section

namespace Cert.Proof

open Idealize.ShloMosaic Idealize.SL.Sem

/-- The word-level kernel program runs and leaves its argument as it found it: its generated frame run. -/
theorem frame_kernel : Cert.frame_Kernel (hKernel := Cert.Kernel.Gen.facts)
    (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference has no kernel: its frame is its run with the result forgotten. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the argument, the kernel's result array ends at the shift of the padded argument
    (the blocks it writes back tile the array) and the reference's at its rolled, joined and narrowed groups of the
    same padded argument, which is that shift too: equal element by element. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ShiftValue.run (F := Ideal) m ρ, ?_⟩
  refine (θ_run Cert.ReferenceIdeal.defs _ _).mono
    (fun _ h c => ⟨(h c).1.trans ((Cert.ReferenceIdeal.RefValue.result_eq m' c).trans ?_), (h c).2⟩)
    (Cert.ReferenceIdeal.Value.run (F := Ideal) m' ρ')
  rw [hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
